-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x4096x3 : Shape := ⟨4, ![2, 4, 4096, 3]⟩
abbrev S2x4x4096x64 : Shape := ⟨4, ![2, 4, 4096, 64]⟩
abbrev S_ : Shape := ⟨0, ![]⟩

class Facts : Prop where
  bcast_S_S2x4x4096x3 : S_.BroadcastsInDim S2x4x4096x3 (![] : Fin 0 → Fin S2x4x4096x3.rank)
  reducesTo_S2x4x4096x3_S_d0_1_2_3 : S2x4x4096x3.ReducesTo [0, 1, 2, 3] S_
  h_S_ : 0 < S_.numel
  bcast_S_S2x4x4096x64 : S_.BroadcastsInDim S2x4x4096x64 (![] : Fin 0 → Fin S2x4x4096x64.rank)
  reducesTo_S2x4x4096x64_S_d0_1_2_3 : S2x4x4096x64.ReducesTo [0, 1, 2, 3] S_

variable [Facts]

def fn {F : FTy → Type} [FloatOps F] (main_arg0 : FVec F S2x4x4096x3 .f32) (main_arg1 : FVec F S2x4x4096x64 .f32) (main_arg2 : FVec F S2x4x4096x3 .f32) : IVec S_ 1 :=
  let main_v0 : FVec F S2x4x4096x3 .f32 := Host.absf main_arg0
  let main_cst : FVec F S_ .f32 := constant S_ .f32 0x7F800000#32
  let main_v1 : FVec F S2x4x4096x3 .f32 := broadcastInDim S2x4x4096x3 ![] bcast_S_S2x4x4096x3 main_cst
  let main_v2 : IVec S2x4x4096x3 1 := cmpf .olt main_v0 main_v1
  let main_c : IVec S_ 1 := constantI S_ 1 1#1
  let main_v3 : IVec S_ 1 := (fun x v => Host.reduce IntOp.andi x v reducesTo_S2x4x4096x3_S_d0_1_2_3 h_S_) main_v2 main_c
  let main_v4 : FVec F S2x4x4096x64 .f32 := Host.absf main_arg1
  let main_cst_0 : FVec F S_ .f32 := constant S_ .f32 0x7F800000#32
  let main_v5 : FVec F S2x4x4096x64 .f32 := broadcastInDim S2x4x4096x64 ![] bcast_S_S2x4x4096x64 main_cst_0
  let main_v6 : IVec S2x4x4096x64 1 := cmpf .olt main_v4 main_v5
  let main_c_1 : IVec S_ 1 := constantI S_ 1 1#1
  let main_v7 : IVec S_ 1 := (fun x v => Host.reduce IntOp.andi x v reducesTo_S2x4x4096x64_S_d0_1_2_3 h_S_) main_v6 main_c_1
  let main_v8 : IVec S_ 1 := andi main_v3 main_v7
  let main_v9 : FVec F S2x4x4096x3 .f32 := Host.absf main_arg2
  let main_cst_2 : FVec F S_ .f32 := constant S_ .f32 0x7F800000#32
  let main_v10 : FVec F S2x4x4096x3 .f32 := broadcastInDim S2x4x4096x3 ![] bcast_S_S2x4x4096x3 main_cst_2
  let main_v11 : IVec S2x4x4096x3 1 := cmpf .olt main_v9 main_v10
  let main_c_3 : IVec S_ 1 := constantI S_ 1 1#1
  let main_v12 : IVec S_ 1 := (fun x v => Host.reduce IntOp.andi x v reducesTo_S2x4x4096x3_S_d0_1_2_3 h_S_) main_v11 main_c_3
  let main_v13 : IVec S_ 1 := andi main_v8 main_v12
  main_v13
-- ==== Kernel.lean ====
abbrev S2x4x4096x3 : Shape := ⟨4, ![2, 4, 4096, 3]⟩
abbrev S2x4x4096x64 : Shape := ⟨4, ![2, 4, 4096, 64]⟩
abbrev S8x4096x3 : Shape := ⟨3, ![8, 4096, 3]⟩
abbrev S8x4096x64 : Shape := ⟨3, ![8, 4096, 64]⟩
abbrev S1x1024x3 : Shape := ⟨3, ![1, 1024, 3]⟩
abbrev S1x1024x64 : Shape := ⟨3, ![1, 1024, 64]⟩
abbrev S1024x64 : Shape := ⟨2, ![1024, 64]⟩
abbrev S1024x3 : Shape := ⟨2, ![1024, 3]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2x4x4096x3, .f32⟩
  | .hbm, ⟨1, _⟩ => ⟨S2x4x4096x64, .f32⟩
  | .hbm, ⟨2, _⟩ => ⟨S2x4x4096x3, .f32⟩
  | .hbm, ⟨3, _⟩ => ⟨S8x4096x3, .f32⟩
  | .hbm, ⟨4, _⟩ => ⟨S8x4096x64, .f32⟩
  | .hbm, ⟨5, _⟩ => ⟨S8x4096x3, .f32⟩
  | .hbm, ⟨6, _⟩ => ⟨S8x4096x64, .f32⟩
  | .hbm, ⟨7, _⟩ => ⟨S2x4x4096x64, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1024x64, .f32⟩
  | _, _ => ⟨S2x4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v34 : BitVec 1 := Scalar.cmpi .eq arg2 c3_i32
  let v35 : BitVec 32 := Scalar.extui v34
  let c0_i32_18 : BitVec 32 := 0#32
  let v36 : BitVec 1 := Scalar.cmpi .ne v35 c0_i32_18
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x4x4096x3_S8x4096x3 : S2x4x4096x3.ShapeCasts S8x4096x3
  shapeCasts_S2x4x4096x64_S8x4096x64 : S2x4x4096x64.ShapeCasts S8x4096x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x3_S1024 : S1024x3.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  bitsLt_bf16_f32 : FTy.bits .bf16 < FTy.bits .f32
  shapeCasts_S1024x64_S1x1024x64 : S1024x64.ShapeCasts S1x1024x64
  shapeCasts_S8x4096x64_S2x4x4096x64 : S8x4096x64.ShapeCasts S2x4x4096x64
  dot_S1024x3_S1024x3_S1024x1024_1_1_0_0_n_n_wf : DotDims.WF S1024x3 S1024x3 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x4096x3.size a
  hwx0_1 : ∀ i : grid0.Coords, EltTy.bits .f32 = 32 ∨ (Rect.block (s := S8x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x4096x64.size a
  hwx0_2 : ∀ i : grid0.Coords, EltTy.bits .f32 = 32 ∨ (Rect.block (s := S8x4096x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x4096x64.size a
  hwx0_3 : ∀ i : grid0.Coords, EltTy.bits .f32 = 32 ∨ (Rect.block (s := S8x4096x64) S1x1024x64.size (cc0_transform_3 i) (hinb0_3 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v2) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x4x4096x3 : Shape := ⟨4, ![2, 4, 4096, 3]⟩
abbrev S2x4x4096x64 : Shape := ⟨4, ![2, 4, 4096, 64]⟩
abbrev S_ : Shape := ⟨0, ![]⟩
abbrev S2x4x4096 : Shape := ⟨3, ![2, 4, 4096]⟩
abbrev S2x4x4096x1 : Shape := ⟨4, ![2, 4, 4096, 1]⟩
abbrev S2x4x1x4096 : Shape := ⟨4, ![2, 4, 1, 4096]⟩
abbrev S2x4x4096x4096 : Shape := ⟨4, ![2, 4, 4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2x4x4096x3, .f32⟩
  | .hbm, ⟨1, _⟩ => ⟨S2x4x4096x64, .f32⟩
  | .hbm, ⟨2, _⟩ => ⟨S2x4x4096x3, .f32⟩
  | .hbm, ⟨3, _⟩ => ⟨S2x4x4096x3, .f32⟩
  | .hbm, ⟨4, _⟩ => ⟨S_, .f32⟩
  | .hbm, ⟨5, _⟩ => ⟨S2x4x4096, .f32⟩
  | .hbm, ⟨6, _⟩ => ⟨S2x4x4096x1, .f32⟩
  | .hbm, ⟨7, _⟩ => ⟨S2x4x4096x3, .f32⟩
  | .hbm, ⟨8, _⟩ => ⟨S_, .f32⟩
  | .hbm, ⟨9, _⟩ => ⟨S2x4x4096, .f32⟩
  | .hbm, ⟨10, _⟩ => ⟨S2x4x1x4096, .f32⟩
  | .hbm, ⟨11, _⟩ => ⟨S2x4x4096x4096, .f32⟩
  | .hbm, ⟨12, _⟩ => ⟨S2x4x4096x4096, .f32⟩
  | .hbm, ⟨13, _⟩ => ⟨S2x4x4096x4096, .f32⟩
  | .hbm, ⟨14, _⟩ => ⟨S2x4x4096x4096, .f32⟩
  | .hbm, ⟨15, _⟩ => ⟨S_, .f32⟩
  | .hbm, ⟨16, _⟩ => ⟨S2x4x4096x4096, .f32⟩
  | .hbm, ⟨17, _⟩ => ⟨S2x4x4096x4096, .f32⟩
  | .hbm, ⟨18, _⟩ => ⟨S2x4x4096x4096, .f32⟩
  | .hbm, ⟨19, _⟩ => ⟨S2x4x4096x4096, .f32⟩
  | .hbm, ⟨20, _⟩ => ⟨S_, .f32⟩
  | .hbm, ⟨21, _⟩ => ⟨S2x4x4096x4096, .f32⟩
  | .hbm, ⟨22, _⟩ => ⟨S2x4x4096x4096, .f32⟩
  | .hbm, ⟨23, _⟩ => ⟨S2x4x4096x4096, .f32⟩
  | .hbm, ⟨24, _⟩ => ⟨S2x4x4096x64, .f32⟩
  | _, _ => ⟨S2x4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S2x4x4096x3_S2x4x4096_d3 : S2x4x4096x3.ReducesTo [3] S2x4x4096
  h_S_ : 0 < S_.numel
  bcast_S2x4x4096_S2x4x4096x1_0_1_2 : S2x4x4096.BroadcastsInDim S2x4x4096x1 (![0, 1, 2] : Fin 3 → Fin S2x4x4096x1.rank)
  bcast_S2x4x4096_S2x4x1x4096_0_1_3 : S2x4x4096.BroadcastsInDim S2x4x1x4096 (![0, 1, 3] : Fin 3 → Fin S2x4x1x4096.rank)
  bcast_S2x4x4096x1_S2x4x4096x4096_0_1_2_3 : S2x4x4096x1.BroadcastsInDim S2x4x4096x4096 (![0, 1, 2, 3] : Fin 4 → Fin S2x4x4096x4096.rank)
  bcast_S2x4x1x4096_S2x4x4096x4096_0_1_2_3 : S2x4x1x4096.BroadcastsInDim S2x4x4096x4096 (![0, 1, 2, 3] : Fin 4 → Fin S2x4x4096x4096.rank)
  bcast_S_S2x4x4096x4096 : S_.BroadcastsInDim S2x4x4096x4096 (![] : Fin 0 → Fin S2x4x4096x4096.rank)
  dot_S2x4x4096x3_S2x4x4096x3_S2x4x4096x4096_3_3_2_2_01_01_wf : DotDims.WF S2x4x4096x3 S2x4x4096x3 S2x4x4096x4096 [3] [3] [2] [2] [0, 1] [0, 1]
  dot_S2x4x4096x4096_S2x4x4096x64_S2x4x4096x64_3_2_2_3_01_01_wf : DotDims.WF S2x4x4096x4096 S2x4x4096x64 S2x4x4096x64 [3] [2] [2] [3] [0, 1] [0, 1]

variable [Facts₀]

def dot_S2x4x4096x3_S2x4x4096x3_S2x4x4096x4096_3_3_2_2_01_01 : DotDims S2x4x4096x3 S2x4x4096x3 S2x4x4096x4096 where
  lhsContracting := [3]
  rhsContracting := [3]
  lhsNonContracting := [2]
  rhsNonContracting := [2]
  lhsBatch := [0, 1]
  rhsBatch := [0, 1]
  wf := dot_S2x4x4096x3_S2x4x4096x3_S2x4x4096x4096_3_3_2_2_01_01_wf
def dot_S2x4x4096x4096_S2x4x4096x64_S2x4x4096x64_3_2_2_3_01_01 : DotDims S2x4x4096x4096 S2x4x4096x64 S2x4x4096x64 where
  lhsContracting := [3]
  rhsContracting := [2]
  lhsNonContracting := [2]
  rhsNonContracting := [3]
  lhsBatch := [0, 1]
  rhsBatch := [0, 1]
  wf := dot_S2x4x4096x4096_S2x4x4096x64_S2x4x4096x64_3_2_2_3_01_01_wf

class Facts : Prop extends Facts₀ where

variable [Facts]
-- ==== Proof.Scalars.lean ====
/-
  The two float literals whose VALUES the comparison needs, and the one law on the extended reals that joins the
  kernel's exponent to the reference's: the kernel scales the squared distance by the literal `-0.5`, the reference
  negates it and divides by the literal `2`. Both are the same extended real for EVERY squared distance `s`
  (`⊥` and `⊤` included): division by a nonzero real is multiplication by its reciprocal, and a sign moves freely
  through a product. Also here: a sum over `4096` consecutive naturals regrouped as four runs of `1024`, the shape in
  which the kernel accumulates the Gram-matrix product tile by tile.
-/
import Idealize.ShloMosaic.PureOps.Ideal
import Mathlib.Algebra.BigOperators.Fin
import Mathlib.Logic.Equiv.Fin.Basic

noncomputable section

namespace Cert.Gauss

open Idealize.ShloMosaic

/-- The literal `2.0` denotes the real `2`. -/
theorem ofBits_two : Ideal.ofBits .f32 0x40000000#32 = ((2 : ℝ) : EReal) := by
  simp [Ideal.ofBits, Ideal.ieee, -EReal.coe_mul]; norm_num

/-- The literal `-0.5` denotes the real `-(1/2)`. -/
theorem ofBits_neg_half : Ideal.ofBits .f32 0xBF000000#32 = ((-(1 / 2) : ℝ) : EReal) := by
  simp [Ideal.ofBits, Ideal.ieee, -EReal.coe_mul]; norm_num

/-- Scaling by `-0.5` is negating and dividing by `2`, on every extended real. -/
theorem neg_half_mul (s : EReal) :
    Ideal.ofBits .f32 0xBF000000#32 * s = Ideal.div (-s) (Ideal.ofBits .f32 0x40000000#32) := by
  rw [ofBits_two, ofBits_neg_half, Ideal.div_coe (by norm_num : (2 : ℝ) ≠ 0), EReal.coe_neg, neg_mul, neg_mul, mul_comm]

/-- A sum over `Fin 4096` of a function of the position is the sum over four consecutive runs of `1024` positions. -/
theorem sum_four_runs {M : Type*} [AddCommMonoid M] (g : ℕ → M) :
    ∑ i : Fin 4096, g i.val = ∑ s ∈ Finset.range 4, ∑ j : Fin 1024, g (s * 1024 + j.val) := by
  rw [← Fin.sum_univ_eq_sum_range (fun s => ∑ j : Fin 1024, g (s * 1024 + j.val)) 4]
  have e := Equiv.sum_comp (finProdFinEquiv (m := 4) (n := 1024)) (fun i : Fin (4 * 1024) => g i.val)
  rw [Fintype.sum_prod_type] at e
  refine (show ∑ i : Fin 4096, g i.val = ∑ i : Fin (4 * 1024), g i.val from rfl).trans (e.symm.trans ?_)
  exact Finset.sum_congr rfl fun a _ => Finset.sum_congr rfl fun b _ => by
    show g ((finProdFinEquiv (a, b)).val) = g (a.val * 1024 + b.val)
    rw [finProdFinEquiv_apply_val]; dsimp only; congr 1; omega

end Cert.Gauss

end
-- ==== Proof.Spec.lean ====
/-
  The function both programs compute, index by index, over the extended reals.

  For a batch pair `(b, c)`, an output point `o` and an input point `i`, with positions `y_o` and `x_i` in 3-space, the
  squared distance is taken in its expanded form `(|y_o|² + |x_i|²) - 2·⟨y_o, x_i⟩`, the Gaussian weight is
  `exp (-0.5 · that)`, and the result at channel `w` is the weighted sum `∑ i, weight(o, i) · W(i, w)` over all `4096`
  input points. The literal `2.0` is kept as the word both programs spell; `-0.5` is the kernel's word (the reference's
  `negate` then `divide by 2.0` is the same extended real: Scalars.lean).
-/
import Idealize.ShloMosaic.Lib.ValueIdx
import proofs.«138235_j72971494359165_1_alg».proof.Proof.Scalars

noncomputable section

namespace Cert.Gauss

open Idealize.ShloMosaic Idealize.ShloMosaic.ValueIdx

/-- Positions: batch, channel group, point, coordinate. -/
abbrev Pos : Shape := ⟨4, ![2, 4, 4096, 3]⟩
/-- Weights and results: batch, channel group, point, channel. -/
abbrev Wts : Shape := ⟨4, ![2, 4, 4096, 64]⟩

/-- The squared length of point `n`'s position. -/
def sqLen (P : Pos.Idx → EReal) (b : Fin 2) (c : Fin 4) (n : Fin 4096) : EReal :=
  ∑ d : Fin 3, P (ix4 b c n d) * P (ix4 b c n d)

/-- The inner product of output point `o`'s and input point `i`'s positions. -/
def inner (Y X : Pos.Idx → EReal) (b : Fin 2) (c : Fin 4) (o i : Fin 4096) : EReal :=
  ∑ d : Fin 3, Y (ix4 b c o d) * X (ix4 b c i d)

/-- The squared distance in expanded form, grouped as both programs group it. -/
def sqDist (Y X : Pos.Idx → EReal) (b : Fin 2) (c : Fin 4) (o i : Fin 4096) : EReal :=
  (sqLen Y b c o + sqLen X b c i) - Ideal.ofBits .f32 0x40000000#32 * inner Y X b c o i

/-- The Gaussian weight of the pair `(o, i)`. -/
def weight (Y X : Pos.Idx → EReal) (b : Fin 2) (c : Fin 4) (o i : Fin 4096) : EReal :=
  Ideal.exp (Ideal.ofBits .f32 0xBF000000#32 * sqDist Y X b c o i)

/-- One input point's contribution to the result at `(b, c, o, w)`. -/
def contrib (X : Pos.Idx → EReal) (W : Wts.Idx → EReal) (Y : Pos.Idx → EReal) (b : Fin 2) (c : Fin 4) (o : Fin 4096)
    (w : Fin 64) (i : Fin 4096) : EReal :=
  weight Y X b c o i * W (ix4 b c i w)

/-- The result: every input point's contribution, summed. -/
def G (X : Pos.Idx → EReal) (W : Wts.Idx → EReal) (Y : Pos.Idx → EReal) : Wts.Idx → EReal :=
  fun j => ∑ i : Fin 4096, contrib X W Y (j 0) (j 1) (j 2) (j 3) i

/-- The contribution of the input point at POSITION `n` (zero past the last point): the form in which a run of
    consecutive positions is summed. -/
def contribAt (X : Pos.Idx → EReal) (W : Wts.Idx → EReal) (Y : Pos.Idx → EReal) (b : Fin 2) (c : Fin 4) (o : Fin 4096)
    (w : Fin 64) (n : ℕ) : EReal :=
  if h : n < 4096 then contrib X W Y b c o w ⟨n, h⟩ else 0

theorem contribAt_val (X : Pos.Idx → EReal) (W : Wts.Idx → EReal) (Y : Pos.Idx → EReal) (b : Fin 2) (c : Fin 4)
    (o : Fin 4096) (w : Fin 64) (i : Fin 4096) : contribAt X W Y b c o w i.val = contrib X W Y b c o w i := by
  unfold contribAt; rw [dif_pos i.isLt]

/-- The result as the kernel accumulates it: from zero, four runs of `1024` input points each. -/
theorem G_eq_runs (X : Pos.Idx → EReal) (W : Wts.Idx → EReal) (Y : Pos.Idx → EReal) (b : Fin 2) (c : Fin 4)
    (o : Fin 4096) (w : Fin 64) :
    G X W Y (ix4 b c o w)
      = 0 + ∑ s ∈ Finset.range 4, ∑ j : Fin 1024, contribAt X W Y b c o w (s * 1024 + j.val) := by
  rw [zero_add, ← sum_four_runs (contribAt X W Y b c o w)]
  exact Finset.sum_congr rfl fun i _ => (contribAt_val X W Y b c o w i).symm

end Cert.Gauss

end
-- ==== Proof.RefValue.lean ====
/-
  The reference, read at an index, is the specification.

  Its last stage is the batched product of the Gaussian weights with the input weights: at `(b, c, o, w)` the sum over
  all input points `i` of `exp ((-(s)) / 2) · W(b, c, i, w)`, where `s` is the expanded squared distance assembled from
  two reduced sums of squares (each started from the literal `0`, which adds nothing), their broadcasts, and the
  batched inner product of the positions. Negating and halving is scaling by `-0.5` (Scalars.lean), so each summand is
  the specification's.
-/
import proofs.«138235_j72971494359165_1_alg».proof.Proof.Gen.ReferenceIdeal.Read
import proofs.«138235_j72971494359165_1_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.Gauss

/-- The reference's result is `G` of the input positions, the input weights and the output positions. -/
theorem ref_eq (x0 : (⟨S2x4x4096x3, .f32⟩ : BufTy).Contents (Elt Ideal)) (x1 : (⟨S2x4x4096x64, .f32⟩ : BufTy).Contents (Elt Ideal))
    (x2 : (⟨S2x4x4096x3, .f32⟩ : BufTy).Contents (Elt Ideal)) :
    val_main_v17 (F := Ideal) x0 x1 x2 = G x0 x1 x2 := by
  funext i
  obtain ⟨b, c, o, w, rfl⟩ : ∃ (b : Fin 2) (c : Fin 4) (o : Fin 4096) (w : Fin 64), i = ix4 b c o w :=
    ⟨i 0, i 1, i 2, i 3, eq_ix4 i⟩
  rw [val_main_v17_apply]
  show _ = ∑ k : Fin 4096, contrib x0 x1 x2 b c o w k
  refine Finset.sum_congr rfl fun k _ => ?_
  have er : ridx_main_v17 (ix4 b c o w) k = ix4 b c k w :=
    funext fun a => Fin.ext (by match a with | ⟨0, _⟩ => rfl | ⟨1, _⟩ => rfl | ⟨2, _⟩ => rfl | ⟨3, _⟩ => rfl)
  rw [er]
  refine congrArg (· * x1 (ix4 b c k w)) ?_
  have e1 : ∀ d : Fin 3, idx_main_v1 (idx_main_v2 (idx_main_v7 (lidx_main_v17 (ix4 b c o w) k))) d = ix4 b c o d := fun d =>
    funext fun a => Fin.ext (by match a with | ⟨0, _⟩ => rfl | ⟨1, _⟩ => rfl | ⟨2, _⟩ => rfl | ⟨3, _⟩ => rfl)
  have e4 : ∀ d : Fin 3, idx_main_v4 (idx_main_v5 (idx_main_v8 (lidx_main_v17 (ix4 b c o w) k))) d = ix4 b c k d := fun d =>
    funext fun a => Fin.ext (by match a with | ⟨0, _⟩ => rfl | ⟨1, _⟩ => rfl | ⟨2, _⟩ => rfl | ⟨3, _⟩ => rfl)
  have el : ∀ d : Fin 3, lidx_main_v6 (lidx_main_v17 (ix4 b c o w) k) d = ix4 b c o d := fun d =>
    funext fun a => Fin.ext (by match a with | ⟨0, _⟩ => rfl | ⟨1, _⟩ => rfl | ⟨2, _⟩ => rfl | ⟨3, _⟩ => rfl)
  have eR : ∀ d : Fin 3, ridx_main_v6 (lidx_main_v17 (ix4 b c o w) k) d = ix4 b c k d := fun d =>
    funext fun a => Fin.ext (by match a with | ⟨0, _⟩ => rfl | ⟨1, _⟩ => rfl | ⟨2, _⟩ => rfl | ⟨3, _⟩ => rfl)
  rw [val_main_v16_apply, val_main_v15_apply, val_main_v13_apply, val_main_v12_apply, val_main_v9_apply,
    val_main_v11_apply, val_main_v7_apply, val_main_v8_apply, val_main_v2_apply, val_main_v5_apply,
    val_main_v1_apply, val_main_v4_apply, val_main_v6_apply, val_main_v10_apply, val_main_v14_apply,
    val_main_cst_1_apply, val_main_cst_2_apply, val_main_cst_apply, val_main_cst_0_apply]
  simp only [val_main_v0_apply, val_main_v3_apply, e1, e4, el, eR, Ideal.hostUnary_exp_def, Ideal.hostDivf_def,
    Ideal.hostNegf_def, Ideal.negf_def, Ideal.subf_def, Ideal.addf_def, Ideal.mulf_def, Ideal.ofBits_def,
    Ideal.ofBits_zero_f32, zero_add]
  rw [← neg_half_mul]
  rfl

end Cert.ReferenceIdeal.RefValue

end
-- ==== Proof.Pieces.lean ====
/-
  What one run of the kernel body leaves behind, as VALUES, for each of the three control cases (any float
  instance). The body updates the accumulator `acc ↦ acc + tile(y, x, w)` — the skeleton's third payload, a function
  of the three loaded blocks and of the accumulator as read back — and

    * at the first input tile of a row of the grid it first stores the zero block, so the accumulator it reads back is
      that zero block;
    * at the middle tiles it reads back what the previous point left;
    * at the last tile it also copies the updated accumulator, with a leading unit axis added, into the output block.

  Every load and store goes through a whole buffer at zero offsets, so each found piece reads back as its payload.
-/
import proofs.«138235_j72971494359165_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- First input tile: the accumulator ends at the update of the zero block. -/
theorem acc_first (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1024x64 .f32) (h5 : a5.IsWhole) (a6 : Memref sig .tc .vmem S1x1024x64 .f32) (h6 : a6.IsWhole) (a7 : Memref sig .tc .vmem S1024x64 .f32) (h7 : a7.IsWhole) (hc0 : cond0_0 i) (hc1 : ¬cond0_1 i)
    (x0 x1 : Vec F S1x1024x3 .f32) (x2 : Vec F S1x1024x64 .f32) :
    sout0_A_0 c i a3 h3 a4 h4 a5 h5 a6 h6 a7 h7 hc0 hc1 x0 x1 x2 = k0_pay3 x0 x1 x2 (k0_pay2 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x64) zeros2, View.readCov_unit_zero (S := S1024x64) _ zeros2]
  simp only [View.readAt_eq_ld, h3.read_unread, h4.read_unread, h5.read_unread,
    View.ld_unit_zero (S := S1x1024x3) zeros3, View.ld_unit_zero (S := S1x1024x64) zeros3]

/-- A middle input tile: the accumulator ends at the update of what the point before left. -/
theorem acc_middle (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1024x64 .f32) (h5 : a5.IsWhole) (a6 : Memref sig .tc .vmem S1x1024x64 .f32) (h6 : a6.IsWhole) (a7 : Memref sig .tc .vmem S1024x64 .f32) (h7 : a7.IsWhole) (hc0 : ¬cond0_0 i) (hc1 : ¬cond0_1 i)
    (x0 x1 : Vec F S1x1024x3 .f32) (x2 : Vec F S1x1024x64 .f32) (xs0 : Vec F S1024x64 .f32) :
    sout0_B_0 c i a3 h3 a4 h4 a5 h5 a6 h6 a7 h7 hc0 hc1 x0 x1 x2 xs0 = k0_pay3 x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero zeros2]
  simp only [View.readAt_eq_ld, h3.read_unread, h4.read_unread, h5.read_unread, h7.read_unread,
    View.ld_unit_zero (S := S1x1024x3) zeros3, View.ld_unit_zero (S := S1x1024x64) zeros3,
    View.ld_unit_zero (S := S1024x64) zeros2]

/-- The last input tile: the accumulator likewise, -/
theorem acc_last (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1024x64 .f32) (h5 : a5.IsWhole) (a6 : Memref sig .tc .vmem S1x1024x64 .f32) (h6 : a6.IsWhole) (a7 : Memref sig .tc .vmem S1024x64 .f32) (h7 : a7.IsWhole) (hc0 : ¬cond0_0 i) (hc1 : cond0_1 i)
    (x0 x1 : Vec F S1x1024x3 .f32) (x2 : Vec F S1x1024x64 .f32) (xs0 : Vec F S1024x64 .f32) :
    sout0_C_0 c i a3 h3 a4 h4 a5 h5 a6 h6 a7 h7 hc0 hc1 x0 x1 x2 xs0 = k0_pay3 x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero zeros2]
  simp only [View.readAt_eq_ld, h3.read_unread, h4.read_unread, h5.read_unread, h7.read_unread,
    View.ld_unit_zero (S := S1x1024x3) zeros3, View.ld_unit_zero (S := S1x1024x64) zeros3,
    View.ld_unit_zero (S := S1024x64) zeros2]

/-- and the output block is that updated accumulator under a leading unit axis. -/
theorem out_last (c : Dev nD) (i : grid0.Coords) (a3 : Memref sig .tc .vmem S1x1024x3 .f32) (h3 : a3.IsWhole) (a4 : Memref sig .tc .vmem S1x1024x3 .f32) (h4 : a4.IsWhole) (a5 : Memref sig .tc .vmem S1x1024x64 .f32) (h5 : a5.IsWhole) (a6 : Memref sig .tc .vmem S1x1024x64 .f32) (h6 : a6.IsWhole) (a7 : Memref sig .tc .vmem S1024x64 .f32) (h7 : a7.IsWhole) (hc0 : ¬cond0_0 i) (hc1 : cond0_1 i)
    (x0 x1 : Vec F S1x1024x3 .f32) (x2 : Vec F S1x1024x64 .f32) (xs0 : Vec F S1024x64 .f32) :
    out0_C_3 c i a3 h3 a4 h4 a5 h5 a6 h6 a7 h7 hc0 hc1 x0 x1 x2 xs0 = k0_pay1 (k0_pay3 x0 x1 x2 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero zeros3, View.readCov_unit_zero (S := S1024x64) _ zeros2]
  simp only [View.readAt_eq_ld, h3.read_unread, h4.read_unread, h5.read_unread, h7.read_unread,
    View.ld_unit_zero (S := S1x1024x3) zeros3, View.ld_unit_zero (S := S1x1024x64) zeros3,
    View.ld_unit_zero (S := S1024x64) zeros2]

end Cert.KernelIdeal.Tile

end
-- ==== Proof.LibColumnLayout.lean ====
/-
  A general lemma file: two layout steps read at an index, for ANY extents `a`, `b` and any element type. A vector made a
  COLUMN by a shape cast (`[a] → [a, 1]`), and a column repeated along the second axis by a broadcast
  (`[a, 1] → [a, b]`): the keepdims forms of a row-wise reduction spread back over a matrix. (The library has the row
  forms `[a] → [1, a]` and `[1, b] → [a, b]`, and the transpose that turns the column into a row.) It imports only the
  library and cites nothing of any program.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` vector cast to an `[a, 1]` column reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, j)`, the column at `r`. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else j.val
    rw [if_pos rfl]

end Cert.ColumnLayout

end
-- ==== Proof.Payload.lean ====
/-
  The accumulator update read at an index, over the extended reals.

  With `y` the block of output positions (rows `r`), `x` the block of input positions (rows `j`) and `wt` the block of
  input weights, the update adds to `acc (r, w)` the tile's partial product
      `∑ j, exp (-0.5 · ((|y_r|² + |x_j|²) - 2·⟨y_r, x_j⟩)) · wt (j, w)`:
  the two lane sums are sums over the three coordinates, the small matrix product the inner product of two rows, the
  large one the sum over the tile's `1024` input points; the changes of float format are the identity and the
  layout steps (dropping a unit axis, making a column, transposing it to a row, spreading both over the tile) only move
  indices.
-/
import proofs.«138235_j72971494359165_1_alg».proof.Proof.Gen.KernelIdeal.Skeleton
import proofs.«138235_j72971494359165_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen Cert.ColumnLayout

/-! ## The lane sum of squares -/

/-- A row's sum of squares: the lane reduction of `u · u` at row `r` is the sum over the three coordinates. -/
theorem rowSq_apply (u : FVec Ideal S1024x3 .f32) (hφ : FKind.Formats .f32)
    (hacc : (0x00000000#32 : BitVec 32) = 0x00000000#32) (r : Fin 1024) :
    multiReduction .add [1] S1024 (mulf u u) 0x00000000#32 reduces_S1024x3_S1024 hφ hacc (ix1 r)
      = ∑ d : Fin 3, u (ix2 r d) * u (ix2 r d) :=
  (Ideal.multiReduction_add_single (mulf u u) 0x00000000#32 reduces_S1024x3_S1024 hφ hacc (ix1 r)).trans
    (Finset.sum_congr rfl fun d _ => by
      have e : reduces_S1024x3_S1024.lift (ix1 r) d = ix2 r d :=
        funext fun a => Fin.ext (by match a with | ⟨0, _⟩ => rfl | ⟨1, _⟩ => rfl)
      rw [e]; rfl)

/-! ## The inner products of rows: the small matrix product -/

theorem inner_lhs_0 (i : S1024x1024.Idx) (q : dot_S1024x3_S1024x3_S1024x1024_1_1_0_0_n_n.contr.Idx) : (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
theorem inner_lhs_1 (i : S1024x1024.Idx) (q : dot_S1024x3_S1024x3_S1024x1024_1_1_0_0_n_n.contr.Idx) : (dot_S1024x3_S1024x3_S1024x1024_1_1_0_0_n_n.lhsIdx i q 1).val = (q ⟨0, by decide⟩).val :=
  dot_S1024x3_S1024x3_S1024x1024_1_1_0_0_n_n.lhsIdx_val_of_single rfl i q
theorem inner_rhs_0 (i : S1024x1024.Idx) (q : dot_S1024x3_S1024x3_S1024x1024_1_1_0_0_n_n.contr.Idx) : (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
theorem inner_rhs_1 (i : S1024x1024.Idx) (q : dot_S1024x3_S1024x3_S1024x1024_1_1_0_0_n_n.contr.Idx) : (dot_S1024x3_S1024x3_S1024x1024_1_1_0_0_n_n.rhsIdx i q 1).val = (q ⟨0, by decide⟩).val :=
  dot_S1024x3_S1024x3_S1024x1024_1_1_0_0_n_n.rhsIdx_val_of_single rfl i q

/-- Rows of `y` against rows of `x`, into zero: at `(r, j)` the inner product of row `r` of `y` and row `j` of `x`. -/
theorem inner_apply (prec : Option ContractPrecision) (y x : FVec Ideal S1024x3 .f32) (r j : Fin 1024) :
    matmul dot_S1024x3_S1024x3_S1024x1024_1_1_0_0_n_n prec y x (constant S1024x1024 .f32 0x00000000#32) (ix2 r j) = ∑ d : Fin 3, y (ix2 r d) * x (ix2 j d) := by
  simp only [matmul]
  rw [Ideal.matmul_constant_zero_apply, ← Equiv.sum_comp (contrEquiv1 dot_S1024x3_S1024x3_S1024x1024_1_1_0_0_n_n 3 rfl rfl).symm]
  refine Finset.sum_congr rfl fun k _ => ?_
  have hk := contrEquiv1_symm_val dot_S1024x3_S1024x3_S1024x1024_1_1_0_0_n_n 3 rfl rfl k
  have el : dot_S1024x3_S1024x3_S1024x1024_1_1_0_0_n_n.lhsIdx (ix2 r j) ((contrEquiv1 dot_S1024x3_S1024x3_S1024x1024_1_1_0_0_n_n 3 rfl rfl).symm k) = ix2 r k := funext fun a => Fin.ext (by
    match a with
    | ⟨0, _⟩ => exact inner_lhs_0 _ _
    | ⟨1, _⟩ => exact (inner_lhs_1 _ _).trans hk)
  have er : dot_S1024x3_S1024x3_S1024x1024_1_1_0_0_n_n.rhsIdx (ix2 r j) ((contrEquiv1 dot_S1024x3_S1024x3_S1024x1024_1_1_0_0_n_n 3 rfl rfl).symm k) = ix2 j k := funext fun a => Fin.ext (by
    match a with
    | ⟨0, _⟩ => exact inner_rhs_0 _ _
    | ⟨1, _⟩ => exact (inner_rhs_1 _ _).trans hk)
  rw [el, er]

/-! ## The tile's product with the weights: the large matrix product -/

theorem tile_lhs_0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem tile_lhs_1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem tile_rhs_0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem tile_rhs_1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The tile of weights `k` against the block `v`, into zero: at `(r, w)` the sum over the tile's input points. -/
theorem tile_apply {φ₁ φ₂ : FTy} (prec : Option ContractPrecision) (k : FVec Ideal S1024x1024 φ₁) (v : FVec Ideal S1024x64 φ₂)
    (r : Fin 1024) (w : Fin 64) :
    matmul dot_S1024x1024_S1024x64_S1024x64_1_0_0_1_n_n prec k v (constant S1024x64 .f32 0x00000000#32) (ix2 r w) = ∑ j : Fin 1024, k (ix2 r j) * v (ix2 j w) := by
  simp only [matmul]
  rw [Ideal.matmul_constant_zero_apply, ← Equiv.sum_comp (contrEquiv1 dot_S1024x1024_S1024x64_S1024x64_1_0_0_1_n_n 1024 rfl rfl).symm]
  refine Finset.sum_congr rfl fun j _ => ?_
  have hk := contrEquiv1_symm_val dot_S1024x1024_S1024x64_S1024x64_1_0_0_1_n_n 1024 rfl rfl j
  have el : dot_S1024x1024_S1024x64_S1024x64_1_0_0_1_n_n.lhsIdx (ix2 r w) ((contrEquiv1 dot_S1024x1024_S1024x64_S1024x64_1_0_0_1_n_n 1024 rfl rfl).symm j) = ix2 r j := funext fun a => Fin.ext (by
    match a with
    | ⟨0, _⟩ => exact tile_lhs_0 _ _
    | ⟨1, _⟩ => exact (tile_lhs_1 _ _).trans hk)
  have er : dot_S1024x1024_S1024x64_S1024x64_1_0_0_1_n_n.rhsIdx (ix2 r w) ((contrEquiv1 dot_S1024x1024_S1024x64_S1024x64_1_0_0_1_n_n 1024 rfl rfl).symm j) = ix2 j w := funext fun a => Fin.ext (by
    match a with
    | ⟨0, _⟩ => exact (tile_rhs_0 _ _).trans hk
    | ⟨1, _⟩ => exact tile_rhs_1 _ _)
  rw [el, er]

/-! ## The three ingredients of a pair's squared distance, at a pair `(r, j)` of the tile -/

/-- The column of the rows' squared norms, spread along the tile's second axis: at `(r, j)` row `r`'s. -/
theorem normCol_apply (u : FVec Ideal S1024x3 .f32) (hφ : FKind.Formats .f32)
    (hacc : (0x00000000#32 : BitVec 32) = 0x00000000#32) (r j : Fin 1024) :
    broadcastTo S1024x1024
        (shapeCast S1024x1 (multiReduction .add [1] S1024 (mulf u u) 0x00000000#32 reduces_S1024x3_S1024 hφ hacc)
          shapeCasts_S1024_S1024x1) broadcasts_S1024x1_S1024x1024 (ix2 r j)
      = ∑ d : Fin 3, u (ix2 r d) * u (ix2 r d) :=
  (broadcastTo_a1_ab_apply _ _ r j).trans ((shapeCast_a_a1_apply _ _ r (0 : Fin 1)).trans (rowSq_apply u hφ hacc r))

/-- The same column transposed to a row and spread along the tile's first axis: at `(r, j)` row `j`'s. -/
theorem normRow_apply (u : FVec Ideal S1024x3 .f32) (hφ : FKind.Formats .f32)
    (hacc : (0x00000000#32 : BitVec 32) = 0x00000000#32) (r j : Fin 1024) :
    broadcastTo S1024x1024
        (transpose S1x1024 [1, 0]
          (shapeCast S1024x1 (multiReduction .add [1] S1024 (mulf u u) 0x00000000#32 reduces_S1024x3_S1024 hφ hacc)
            shapeCasts_S1024_S1024x1) transposes_S1024x1_p1_0_S1x1024) broadcasts_S1x1024_S1024x1024 (ix2 r j)
      = ∑ d : Fin 3, u (ix2 j d) * u (ix2 j d) :=
  (broadcastTo_1b_ab_apply _ _ r j).trans
    ((transpose_ix2_apply _ _ (0 : Fin 1) j).trans
      ((shapeCast_a_a1_apply _ _ j (0 : Fin 1)).trans (rowSq_apply u hφ hacc j)))

/-- A loaded block with its leading unit axis dropped, read at `(p, q)`. -/
theorem dropUnit3_apply (v : FVec Ideal S1x1024x3 .f32) (p : Fin 1024) (q : Fin 3) :
    shapeCast S1024x3 v shapeCasts_S1x1024x3_S1024x3 (ix2 p q) = v (ix3 (0 : Fin 1) p q) :=
  shapeCast_1ab_ab_apply v _ p q
theorem dropUnit64_apply (v : FVec Ideal S1x1024x64 .f32) (p : Fin 1024) (q : Fin 64) :
    shapeCast S1024x64 v shapeCasts_S1x1024x64_S1024x64 (ix2 p q) = v (ix3 (0 : Fin 1) p q) :=
  shapeCast_1ab_ab_apply v _ p q

/-! ## The update -/

/-- The tile's partial product at `(r, w)`: over the tile's input points `j`, the Gaussian weight of the pair
    `(r, j)` times the input weight `(j, w)`. -/
def tilePart (y x : FVec Ideal S1x1024x3 .f32) (wt : FVec Ideal S1x1024x64 .f32) (r : Fin 1024) (w : Fin 64) : EReal :=
  ∑ j : Fin 1024,
    Ideal.exp (Ideal.ofBits .f32 0xBF000000#32 *
      ((∑ d : Fin 3, y (ix3 (0 : Fin 1) r d) * y (ix3 (0 : Fin 1) r d)
          + ∑ d : Fin 3, x (ix3 (0 : Fin 1) j d) * x (ix3 (0 : Fin 1) j d))
        - Ideal.ofBits .f32 0x40000000#32 * ∑ d : Fin 3, y (ix3 (0 : Fin 1) r d) * x (ix3 (0 : Fin 1) j d)))
    * wt (ix3 (0 : Fin 1) j w)

/-- It depends on the blocks only through row `r` of `y`, the rows of `x` and column `w` of `wt`. -/
theorem tilePart_eq (y x : FVec Ideal S1x1024x3 .f32) (wt : FVec Ideal S1x1024x64 .f32) (r : Fin 1024) (w : Fin 64)
    (Yr : Fin 3 → EReal) (Xs : Fin 1024 → Fin 3 → EReal) (Ws : Fin 1024 → EReal)
    (hy : ∀ d, y (ix3 (0 : Fin 1) r d) = Yr d) (hx : ∀ j d, x (ix3 (0 : Fin 1) j d) = Xs j d)
    (hw : ∀ j, wt (ix3 (0 : Fin 1) j w) = Ws j) :
    tilePart y x wt r w
      = ∑ j : Fin 1024,
          Ideal.exp (Ideal.ofBits .f32 0xBF000000#32 *
            ((∑ d : Fin 3, Yr d * Yr d + ∑ d : Fin 3, Xs j d * Xs j d)
              - Ideal.ofBits .f32 0x40000000#32 * ∑ d : Fin 3, Yr d * Xs j d)) * Ws j := by
  unfold tilePart
  simp only [hy, hx, hw]

/-- The accumulator update at `(r, w)`: the accumulator there plus the tile's partial product. -/
theorem update_apply (y x : FVec Ideal S1x1024x3 .f32) (wt : FVec Ideal S1x1024x64 .f32) (acc : FVec Ideal S1024x64 .f32)
    (r : Fin 1024) (w : Fin 64) :
    k0_pay3 (F := Ideal) y x wt acc (ix2 r w) = acc (ix2 r w) + tilePart y x wt r w := by
  unfold k0_pay3 tilePart
  dsimp only
  rw [shapeCast_self]
  refine (addf_apply _ _ _).trans ?_
  refine congrArg (acc (ix2 r w) + ·) ((tile_apply none _ _ r w).trans (Finset.sum_congr rfl fun j _ => ?_))
  refine congrArg₂ (· * ·) ?_ (dropUnit64_apply wt j w)
  refine congrArg Ideal.exp (congrArg (Ideal.ofBits .f32 0xBF000000#32 * ·)
    (congrArg₂ (· - ·) (congrArg₂ (· + ·) ?_ ?_) (congrArg (Ideal.ofBits .f32 0x40000000#32 * ·) ?_)))
  · refine (normCol_apply _ _ _ r j).trans (Finset.sum_congr rfl fun d _ => ?_)
    rw [dropUnit3_apply]
  · refine (normRow_apply _ _ _ r j).trans (Finset.sum_congr rfl fun d _ => ?_)
    rw [dropUnit3_apply]
  · refine (inner_apply _ _ _ r j).trans (Finset.sum_congr rfl fun d _ => ?_)
    rw [dropUnit3_apply, dropUnit3_apply]

end Cert.KernelIdeal.Tile

end
-- ==== Proof.Accum.lean ====
/-
  The accumulator across the grid, at the ideal instance.

  The grid's last axis runs over the four tiles of input points; along it the body resets the accumulator at the
  first tile and updates it at each tile. So what the accumulator holds after ANY point is the fold of the update from
  the last reset, and read at `(r, w)` that fold is `0` plus the partial products of the tiles met since the reset — a
  sum over a range of consecutive points, with no enumeration of the grid.
-/
import proofs.«138235_j72971494359165_1_alg».proof.Proof.Pieces
import proofs.«138235_j72971494359165_1_alg».proof.Proof.Payload
import Idealize.ShloMosaic.Lib.Pipeline.Value

noncomputable section

open Idealize.ShloMosaic Idealize.ShloMosaic.TcCoe Idealize.SL.Sem Idealize.ShloMosaic.ValueIdx

namespace Cert.KernelIdeal.Tile

open Cert.KernelIdeal Cert.KernelIdeal.Gen

variable (m : (ℓ : Loc nD τ sig) → Buf (Elt Ideal) ℓ)

/-- The blocks a point reads, at their literal types: output positions, input positions, input weights. -/
abbrev yblk (c : Dev nD) (t : Fin cfg0.N) : FVec Ideal S1x1024x3 .f32 := iblk m c 0 t
abbrev xblk (c : Dev nD) (t : Fin cfg0.N) : FVec Ideal S1x1024x3 .f32 := iblk m c 1 t
abbrev wblk (c : Dev nD) (t : Fin cfg0.N) : FVec Ideal S1x1024x64 .f32 := iblk m c 2 t

/-- What the accumulator holds after point `n`. -/
abbrev accAfter (c : Dev nD) (n : ℕ) (h : n < cfg0.N) : FVec Ideal S1024x64 .f32 := (outsAt0 m c n h).2

/-- The accumulator after a point that resets it, and the step a later point takes. -/
abbrev reset (c : Dev nD) (n : ℕ) (h : n < cfg0.N) : FVec Ideal S1024x64 .f32 :=
  k0_pay3 (yblk m c ⟨n, h⟩) (xblk m c ⟨n, h⟩) (wblk m c ⟨n, h⟩) (k0_pay2 (F := Ideal))
abbrev step (c : Dev nD) (n : ℕ) (h : n < cfg0.N) (acc : FVec Ideal S1024x64 .f32) : FVec Ideal S1024x64 .f32 :=
  k0_pay3 (yblk m c ⟨n, h⟩) (xblk m c ⟨n, h⟩) (wblk m c ⟨n, h⟩) acc

/-- At a point on the first input tile the accumulator is the reset value. -/
theorem acc_reset (c : Dev nD) (n : ℕ) (h : n < cfg0.N) (h0 : n % 4 = 0) : accAfter m c n h = reset m c n h := by
  have h1 : ¬n % 4 = 3 := by omega
  show (outsAt0 m c (⟨n, h⟩ : Fin cfg0.N).val (⟨n, h⟩ : Fin cfg0.N).isLt).2 = _
  rw [outsAt0_A m c ⟨n, h⟩ h0 h1]
  dsimp only
  exact acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
    ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- At any other point it is the step over what the point before left. -/
theorem acc_step (c : Dev nD) (n : ℕ) (h : n + 1 < cfg0.N) (hne : ¬(n + 1) % 4 = 0) :
    accAfter m c (n + 1) h = step m c (n + 1) h (accAfter m c n (Nat.lt_of_succ_lt h)) := by
  by_cases h1 : (n + 1) % 4 = 3
  · show (outsAt0 m c (⟨n + 1, h⟩ : Fin cfg0.N).val (⟨n + 1, h⟩ : Fin cfg0.N).isLt).2 = _
    rw [outsAt0_C m c ⟨n + 1, h⟩ hne h1]
    dsimp only
    exact acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
      (fun hh => hne ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩)
      (outsAt0 m c n (Nat.lt_of_succ_lt h)).2
  · show (outsAt0 m c (⟨n + 1, h⟩ : Fin cfg0.N).val (⟨n + 1, h⟩ : Fin cfg0.N).isLt).2 = _
    rw [outsAt0_B m c ⟨n + 1, h⟩ hne h1]
    dsimp only
    exact acc_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
      (fun hh => hne ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩)
      (outsAt0 m c n (Nat.lt_of_succ_lt h)).2

/-- So after point `t` it is the fold of the step from the reset at the start of `t`'s run of four. -/
theorem acc_fold (c : Dev nD) (t : ℕ) (ht : t < cfg0.N) (h' : 4 * (t / 4) + t % 4 < cfg0.N) :
    accAfter m c t ht = Pipeline.accAt (reset m c) (step m c) (4 * (t / 4)) (t % 4) h' :=
  Pipeline.eq_accAt_of_mod (accAfter m c) 4 (reset m c) (step m c) (fun n h h0 => acc_reset m c n h h0)
    (fun n h hne => acc_step m c n h hne) (by decide) t ht h'

/-- The zero block the reset stores is zero everywhere. -/
theorem zeroBlock_apply (i : S1024x64.Idx) : k0_pay2 (F := Ideal) i = 0 := by
  unfold k0_pay2
  rw [shapeCast_self]
  exact Ideal.ofBits_zero_f32

/-- The partial product of the tile point `n` reads, at `(r, w)` (zero past the grid). -/
def part (c : Dev nD) (n : ℕ) (r : Fin 1024) (w : Fin 64) : EReal :=
  if h : n < cfg0.N then tilePart (yblk m c ⟨n, h⟩) (xblk m c ⟨n, h⟩) (wblk m c ⟨n, h⟩) r w else 0

/-- The same as a function of the accumulator's index. -/
abbrev partAt (c : Dev nD) (n : ℕ) (i : S1024x64.Idx) : EReal :=
  part m c n ⟨(i 0).val, idx2_lt0 i⟩ ⟨(i 1).val, idx2_lt1 i⟩

theorem step_apply (c : Dev nD) (n : ℕ) (h : n < cfg0.N) (acc : FVec Ideal S1024x64 .f32) (i : S1024x64.Idx) :
    step m c n h acc i = acc i + partAt m c n i := by
  obtain ⟨r, w, rfl⟩ : ∃ (r : Fin 1024) (w : Fin 64), i = ix2 r w := ⟨i 0, i 1, eq_ix2 i⟩
  refine (update_apply (yblk m c ⟨n, h⟩) (xblk m c ⟨n, h⟩) (wblk m c ⟨n, h⟩) acc r w).trans ?_
  show _ = acc (ix2 r w) + part m c n r w
  unfold part
  rw [dif_pos h]

/-- THE ACCUMULATOR AT AN INDEX: zero plus the partial products of the tiles of its run, up to the point. -/
theorem acc_apply (c : Dev nD) (t : ℕ) (ht : t < cfg0.N) (r : Fin 1024) (w : Fin 64) :
    accAfter m c t ht (ix2 r w) = 0 + ∑ s ∈ Finset.range (t % 4 + 1), part m c (4 * (t / 4) + s) r w := by
  have h' : 4 * (t / 4) + t % 4 < cfg0.N := by rw [Nat.div_add_mod]; exact ht
  rw [acc_fold m c t ht h']
  exact Pipeline.accAt_add_apply (reset m c) (step m c) (fun _ => 0) (partAt m c) (4 * (t / 4)) (t % 4)
    (fun h i => (step_apply m c _ h (k0_pay2 (F := Ideal)) i).trans (by rw [zeroBlock_apply]))
    (fun n h acc i _ _ => step_apply m c n h acc i) (t % 4) le_rfl h' (ix2 r w)

end Cert.KernelIdeal.Tile

end
-- ==== Proof.Blocks.lean ====
/-
  From the blocks to the arrays.

  Grid point `t` is the triple (batch pair `t / 16`, output tile `t / 4 % 4`, input tile `t % 4`). The three input
  windows read, of the position and weight arrays reshaped to eight batch pairs, the block their index map names; a
  reshape that merges the two leading axes keeps the row-major position, so each block entry is an entry of an ARGUMENT
  array at `(t / 64, t / 16 % 4, tile · 1024 + row, ·)`. Hence a tile's partial product is a run of `1024` of the
  specification's contributions, the accumulator after the fourth tile of a run is the specification's whole sum, and the
  block written back there is the block of the specification's result (reshaped to eight batch pairs). The sixteen
  blocks of each batch pair's four output tiles cover the result array.
-/
import proofs.«138235_j72971494359165_1_alg».proof.Proof.Accum
import proofs.«138235_j72971494359165_1_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.Gauss

variable (m : (ℓ : Loc nD τ sig) → Buf (Elt Ideal) ℓ)

/-- The argument arrays: input positions, input weights, output positions. -/
abbrev argX (c : Dev nD) : Pos.Idx → EReal := m ((c : Thread nD τ).loc main_arg0)
abbrev argW (c : Dev nD) : Wts.Idx → EReal := m ((c : Thread nD τ).loc main_arg1)
abbrev argY (c : Dev nD) : Pos.Idx → EReal := m ((c : Thread nD τ).loc main_arg2)

/-! ## The index maps, decided over the grid -/

theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

/-! ## The arrays the region finds: the arguments with their two leading axes merged -/

theorem V_ypos (c : Dev nD) : (V m c main_v2 : S8x4096x3.Idx → EReal)
    = shapeCast S8x4096x3 (argY m c) shapeCasts_S2x4x4096x3_S8x4096x3 := by
  show StableHlo.after hostOps0 (fun b => m (c, b)) (Proc.devRef .tc main_v2) = _
  after_results
  rfl

theorem V_xpos (c : Dev nD) : (V m c main_v0 : S8x4096x3.Idx → EReal)
    = shapeCast S8x4096x3 (argX m c) shapeCasts_S2x4x4096x3_S8x4096x3 := by
  show StableHlo.after hostOps0 (fun b => m (c, b)) (Proc.devRef .tc main_v0) = _
  after_results
  rfl

theorem V_wts (c : Dev nD) : (V m c main_v1 : S8x4096x64.Idx → EReal)
    = shapeCast S8x4096x64 (argW m c) shapeCasts_S2x4x4096x64_S8x4096x64 := by
  show StableHlo.after hostOps0 (fun b => m (c, b)) (Proc.devRef .tc main_v1) = _
  after_results
  rfl

/-- Merging the two leading axes: the entry at `(4·b + g, n, d)` is the entry at `(b, g, n, d)`. -/
theorem merge_pos_apply (P : Pos.Idx → EReal) (b : Fin 2) (g : Fin 4) (n : Fin 4096) (d : Fin 3) (j : S8x4096x3.Idx)
    (h0 : (j 0).val = b.val * 4 + g.val) (h1 : (j 1).val = n.val) (h2 : (j 2).val = d.val) :
    shapeCast S8x4096x3 P shapeCasts_S2x4x4096x3_S8x4096x3 j = P (ix4 b g n d) :=
  shapeCast_apply P _ j (ix4 b g n d) (by
    rw [Shape.rowMajor_val_four, Shape.rowMajor_val_three]
    show ((b.val * 4 + g.val) * 4096 + n.val) * 3 + d.val = ((j 0).val * 4096 + (j 1).val) * 3 + (j 2).val
    rw [h0, h1, h2])

theorem merge_wts_apply (P : Wts.Idx → EReal) (b : Fin 2) (g : Fin 4) (n : Fin 4096) (w : Fin 64) (j : S8x4096x64.Idx)
    (h0 : (j 0).val = b.val * 4 + g.val) (h1 : (j 1).val = n.val) (h2 : (j 2).val = w.val) :
    shapeCast S8x4096x64 P shapeCasts_S2x4x4096x64_S8x4096x64 j = P (ix4 b g n w) :=
  shapeCast_apply P _ j (ix4 b g n w) (by
    rw [Shape.rowMajor_val_four, Shape.rowMajor_val_three]
    show ((b.val * 4 + g.val) * 4096 + n.val) * 64 + w.val = ((j 0).val * 4096 + (j 1).val) * 64 + (j 2).val
    rw [h0, h1, h2])

/-! ## The blocks a point reads, as entries of the argument arrays -/

theorem yblk_apply (c : Dev nD) (t : Fin cfg0.N) (r : Fin 1024) (d : Fin 3) (b : Fin 2) (g : Fin 4) (o : Fin 4096)
    (hbg : b.val * 4 + g.val = t.val / 16) (ho : o.val = t.val / 4 % 4 * 1024 + r.val) :
    yblk m c t (ix3 (0 : Fin 1) r d) = argY m c (ix4 b g o d) := by
  show ((cfg0.win 0).blk t).view.read (Elt Ideal) (V m c (Pipeline.arrRef spec0 0)) (ix3 (0 : Fin 1) r d) = _
  rw [View.read_apply]
  show V m c main_v2 (((cfg0.win 0).blk t).view.emb (ix3 (0 : Fin 1) r d)) = _
  rw [V_ypos]
  obtain ⟨e0, e1, e2, -⟩ := idx_facts t
  refine merge_pos_apply (argY m c) b g o d _ ?_ ?_ ?_
  · show win0_0.index t (0 : Fin 3) * 1 + 1 * 0 = b.val * 4 + g.val; omega
  · show win0_0.index t (1 : Fin 3) * 1024 + 1 * r.val = o.val; omega
  · show win0_0.index t (2 : Fin 3) * 3 + 1 * d.val = d.val; omega

theorem xblk_apply (c : Dev nD) (t : Fin cfg0.N) (j : Fin 1024) (d : Fin 3) (b : Fin 2) (g : Fin 4) (i : Fin 4096)
    (hbg : b.val * 4 + g.val = t.val / 16) (hi : i.val = t.val % 4 * 1024 + j.val) :
    xblk m c t (ix3 (0 : Fin 1) j d) = argX m c (ix4 b g i d) := by
  show ((cfg0.win 1).blk t).view.read (Elt Ideal) (V m c (Pipeline.arrRef spec0 1)) (ix3 (0 : Fin 1) j d) = _
  rw [View.read_apply]
  show V m c main_v0 (((cfg0.win 1).blk t).view.emb (ix3 (0 : Fin 1) j d)) = _
  rw [V_xpos]
  obtain ⟨-, -, -, e0, e1, e2, -⟩ := idx_facts t
  refine merge_pos_apply (argX m c) b g i d _ ?_ ?_ ?_
  · show win0_1.index t (0 : Fin 3) * 1 + 1 * 0 = b.val * 4 + g.val; omega
  · show win0_1.index t (1 : Fin 3) * 1024 + 1 * j.val = i.val; omega
  · show win0_1.index t (2 : Fin 3) * 3 + 1 * d.val = d.val; omega

theorem wblk_apply (c : Dev nD) (t : Fin cfg0.N) (j : Fin 1024) (w : Fin 64) (b : Fin 2) (g : Fin 4) (i : Fin 4096)
    (hbg : b.val * 4 + g.val = t.val / 16) (hi : i.val = t.val % 4 * 1024 + j.val) :
    wblk m c t (ix3 (0 : Fin 1) j w) = argW m c (ix4 b g i w) := by
  show ((cfg0.win 2).blk t).view.read (Elt Ideal) (V m c (Pipeline.arrRef spec0 2)) (ix3 (0 : Fin 1) j w) = _
  rw [View.read_apply]
  show V m c main_v1 (((cfg0.win 2).blk t).view.emb (ix3 (0 : Fin 1) j w)) = _
  rw [V_wts]
  obtain ⟨-, -, -, -, -, -, e0, e1, e2, -⟩ := idx_facts t
  refine merge_wts_apply (argW m c) b g i w _ ?_ ?_ ?_
  · show win0_2.index t (0 : Fin 3) * 1 + 1 * 0 = b.val * 4 + g.val; omega
  · show win0_2.index t (1 : Fin 3) * 1024 + 1 * j.val = i.val; omega
  · show win0_2.index t (2 : Fin 3) * 64 + 1 * w.val = w.val; omega

/-! ## A tile's partial product is a run of the specification's contributions -/

theorem part_eq (c : Dev nD) (n : ℕ) (hn : n < cfg0.N) (r : Fin 1024) (w : Fin 64) (b : Fin 2) (g : Fin 4) (o : Fin 4096)
    (hbg : b.val * 4 + g.val = n / 16) (ho : o.val = n / 4 % 4 * 1024 + r.val) :
    part m c n r w = ∑ j : Fin 1024, contribAt (argX m c) (argW m c) (argY m c) b g o w (n % 4 * 1024 + j.val) := by
  have hlt : ∀ j : Fin 1024, n % 4 * 1024 + j.val < 4096 := fun j => by have := j.isLt; omega
  unfold part
  rw [dif_pos hn]
  refine (tilePart_eq (yblk m c ⟨n, hn⟩) (xblk m c ⟨n, hn⟩) (wblk m c ⟨n, hn⟩) r w
    (fun d => argY m c (ix4 b g o d)) (fun j d => argX m c (ix4 b g ⟨n % 4 * 1024 + j.val, hlt j⟩ d))
    (fun j => argW m c (ix4 b g ⟨n % 4 * 1024 + j.val, hlt j⟩ w))
    (fun d => yblk_apply m c ⟨n, hn⟩ r d b g o hbg ho)
    (fun j d => xblk_apply m c ⟨n, hn⟩ j d b g ⟨n % 4 * 1024 + j.val, hlt j⟩ hbg rfl)
    (fun j => wblk_apply m c ⟨n, hn⟩ j w b g ⟨n % 4 * 1024 + j.val, hlt j⟩ hbg rfl)).trans ?_
  refine Finset.sum_congr rfl fun j _ => ?_
  unfold contribAt
  rw [dif_pos (hlt j)]
  rfl

/-! ## The block written back, and the result array -/

/-- The specification's result with its two leading axes merged: what the kernel's result array holds. -/
abbrev G3 (c : Dev nD) : S8x4096x64.Idx → EReal :=
  shapeCast S8x4096x64 (G (argX m c) (argW m c) (argY m c)) shapeCasts_S2x4x4096x64_S8x4096x64

/-- The accumulator with a leading unit axis added, read at a block index. -/
theorem addUnit_apply (A : FVec Ideal S1024x64 .f32) (y : S1x1024x64.Idx) (r : Fin 1024) (w : Fin 64)
    (hr : (y 1).val = r.val) (hw : (y 2).val = w.val) : k0_pay1 (F := Ideal) A y = A (ix2 r w) := by
  unfold k0_pay1
  refine shapeCast_apply A _ y (ix2 r w) ?_
  rw [Shape.rowMajor_val_two, Shape.rowMajor_val_three]
  show r.val * 64 + w.val = ((y 0).val * 1024 + (y 1).val) * 64 + (y 2).val
  have h0 : (y 0).val < 1 := (y 0).isLt
  omega

/-- At a point on the last input tile the output block is the accumulator it leaves, under a unit axis. -/
theorem out_flush (c : Dev nD) (t : Fin cfg0.N) (h3 : t.val % 4 = 3) :
    (outsAt0 m c t.val t.isLt).1 = k0_pay1 (F := Ideal) (accAfter m c t.val t.isLt) := by
  have h0 : ¬t.val % 4 = 0 := by omega
  show _ = k0_pay1 (F := Ideal) (outsAt0 m c t.val t.isLt).2
  rw [outsAt0_C m c t h0 h3]
  dsimp only
  exact (out_last (F := Ideal) c (grid0.coords t) (ms0_0 t) (hs0_0 t) (ms0_1 t) (hs0_1 t) (ms0_2 t) (hs0_2 t) (ms0_3 t) (hs0_3 t) scM0_0 (Memref.isWhole_whole _)
      (fun hh => h0 ((hcond0_0 t).mp hh)) ((hcond0_1 t).mpr h3) (iblk m c 0 t) (iblk m c 1 t) (iblk m c 2 t)
      (outsAt0 m c (t.val - 1) (Nat.lt_of_le_of_lt (Nat.sub_le _ _) t.isLt)).2).trans
    (congrArg (k0_pay1 (F := Ideal)) (acc_last (F := Ideal) c (grid0.coords t) (ms0_0 t) (hs0_0 t) (ms0_1 t) (hs0_1 t) (ms0_2 t) (hs0_2 t) (ms0_3 t) (hs0_3 t) scM0_0 (Memref.isWhole_whole _)
      (fun hh => h0 ((hcond0_0 t).mp hh)) ((hcond0_1 t).mpr h3) (iblk m c 0 t) (iblk m c 1 t) (iblk m c 2 t)
      (outsAt0 m c (t.val - 1) (Nat.lt_of_le_of_lt (Nat.sub_le _ _) t.isLt)).2).symm)

/-- WHAT A WRITE-BACK WRITES is its block of the specification's result. -/
theorem flushed_eq (c : Dev nD) (t : Fin cfg0.N) (hf : (cfg0.win 3).flush t = true) :
    (dats m 0 c).flushed 3 t = ((cfg0.win 3).blk t).view.read (Elt Ideal) (G3 m c) := by
  have h3 : t.val % 4 = 3 := (flush0_3 t).mp hf
  have hN : t.val < 128 := lt_of_lt_of_eq t.isLt (show cfg0.N = 128 from N_0)
  show (cfg0.win 3).cut (grid0.coords t) ((dats m 0 c).after 3 t) = _
  rw [after0_3, out_flush m c t h3]
  funext y
  rw [View.read_apply]
  have hy1 : (y 1).val < 1024 := (y 1).isLt
  have hy2 : (y 2).val < 64 := (y 2).isLt
  have hb : t.val / 64 < 2 := by omega
  have hg : t.val / 16 % 4 < 4 := by omega
  have ho : t.val / 4 % 4 * 1024 + (y 1).val < 4096 := by omega
  obtain ⟨-, -, -, -, -, -, -, -, -, e0, e1, e2⟩ := idx_facts t
  -- the right side: the specification's result at (batch, group, output point, channel)
  have hR : G3 m c (((cfg0.win 3).blk t).view.emb y)
      = G (argX m c) (argW m c) (argY m c) (ix4 ⟨t.val / 64, hb⟩ ⟨t.val / 16 % 4, hg⟩ ⟨t.val / 4 % 4 * 1024 + (y 1).val, ho⟩ ⟨(y 2).val, hy2⟩) := by
    refine merge_wts_apply _ ⟨t.val / 64, hb⟩ ⟨t.val / 16 % 4, hg⟩ ⟨t.val / 4 % 4 * 1024 + (y 1).val, ho⟩ ⟨(y 2).val, hy2⟩ _ ?_ ?_ ?_
    · show win0_3.index t (0 : Fin 3) * 1 + 1 * (y 0).val = t.val / 64 * 4 + t.val / 16 % 4
      have : (y 0).val < 1 := (y 0).isLt
      omega
    · show win0_3.index t (1 : Fin 3) * 1024 + 1 * (y 1).val = t.val / 4 % 4 * 1024 + (y 1).val; omega
    · show win0_3.index t (2 : Fin 3) * 64 + 1 * (y 2).val = (y 2).val; omega
  refine Eq.trans ?_ hR.symm
  -- the left side: the accumulator after the run's fourth tile
  show k0_pay1 (F := Ideal) (accAfter m c t.val t.isLt) ((cfg0.win 3).xinj (grid0.coords t) y) = _
  rw [addUnit_apply (accAfter m c t.val t.isLt) _ ⟨(y 1).val, hy1⟩ ⟨(y 2).val, hy2⟩ rfl rfl,
    acc_apply m c t.val t.isLt, G_eq_runs, h3]
  refine congrArg (0 + ·) (Finset.sum_congr rfl fun s hs => ?_)
  have hs4 : s < 4 := Finset.mem_range.mp hs
  have hn : 4 * (t.val / 4) + s < cfg0.N :=
    lt_of_lt_of_eq (by omega : 4 * (t.val / 4) + s < 128) (show cfg0.N = 128 from N_0).symm
  rw [part_eq m c (4 * (t.val / 4) + s) hn ⟨(y 1).val, hy1⟩ ⟨(y 2).val, hy2⟩ ⟨t.val / 64, hb⟩ ⟨t.val / 16 % 4, hg⟩
    ⟨t.val / 4 % 4 * 1024 + (y 1).val, ho⟩ (by show t.val / 64 * 4 + t.val / 16 % 4 = (4 * (t.val / 4) + s) / 16; omega)
    (by show t.val / 4 % 4 * 1024 + (y 1).val = (4 * (t.val / 4) + s) / 4 % 4 * 1024 + (y 1).val; omega)]
  have hsm : (4 * (t.val / 4) + s) % 4 = s := by omega
  rw [hsm]

/-- Every index of the result array lies in the block some write-back writes. -/
theorem covered (i : S8x4096x64.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 64 := (i 2).isLt
  have hN : cfg0.N = 128 := N_0
  let t : Fin cfg0.N := ⟨(i 0).val * 16 + (i 1).val / 1024 * 4 + 3, by rw [hN]; omega⟩
  have htv : t.val = (i 0).val * 16 + (i 1).val / 1024 * 4 + 3 := rfl
  obtain ⟨-, -, -, -, -, -, -, -, -, e0, e1, e2⟩ := idx_facts t
  refine ⟨t, (flush0_3 t).mpr (by rw [htv]; omega), ?_⟩
  show i ∈ ((View.whole main_v3).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 64 ≤ (i 2).val ∧ (i 2).val < win0_3.index t (2 : Fin 3) * 64 + 64
    omega

/-- THE RESULT ARRAY after the run. -/
theorem final (c : Dev nD) : (dats m 0 c).arrAt 3 cfg0.N = G3 m c :=
  (dats m 0 c).arrAt_eq_of_cover 3 (G3 m c) (flushed_eq m c) covered

end Cert.KernelIdeal.Tile

end
-- ==== Proof.Result.lean ====
/-
  The idealized kernel's run, read whole.

  After the region the program reshapes the eight-batch-pair result array back to `(2, 4, 4096, 64)`. The region leaves
  that array at the specification's result with its two leading axes merged (Blocks.lean), and splitting the merged axis
  again undoes the merge: the program's result is the specification's.
-/
import proofs.«138235_j72971494359165_1_alg».proof.Proof.Blocks
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.Gauss

variable (m : (ℓ : Loc nD τ sig) → Buf (Elt Ideal) ℓ) (ρ : Dev nD → PrngReg)

/-- The result buffer after the lines that follow the region. -/
theorem tail_eq (c : Dev nD) :
    Pipeline.afterTail₀ cfgs (dats m) 0 (V0 m) [hostOps1] c main_v4 = G (argX m c) (argW m c) (argY m c) := by
  unfold Pipeline.afterTail₀
  show StableHlo.after hostOps1 _ (Proc.devRef .tc main_v4) = _
  after_results
  rw [show Pipeline.withArrays spec0 c (V0 m c) (fun w => (dats m 0 c).arrAt w cfg0.N) (Proc.devRef .tc main_v3) = G3 m c from
    (Pipeline.withArrays_arr spec0 launch0.win.arr_inj c _ _ 3).trans (final m c)]
  exact shapeCast_shapeCast _ _ _

/-- Every weakly fair execution ends with the result at the specification's value and the arguments unchanged. -/
theorem run : θ_run defs (onTc (τ := τ) (main (F := Ideal))) ⟨m, fun _ => 0, ρ⟩ fun r => ∀ c : Dev nD,
      r.2.mem ((c.tc : Thread nD τ).loc main_v4) = G (argX m c) (argW m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tile

end
-- ==== Proof.lean ====
/-
  A Gaussian-kernel interpolation: for each of eight batch pairs, `4096` output points `y_o` and `4096` input points
  `x_i` in 3-space, and `64` channels of input weights, the result at `(o, w)` is
      `∑ i, exp (-|y_o - x_i|² / 2) · W(i, w)`
  with the squared distance in its expanded form `(|y_o|² + |x_i|²) - 2·⟨y_o, x_i⟩`.

  The kernel tiles the pairs `(o, i)` into `1024 × 1024` tiles. For each output tile it accumulates, over the four
  input tiles, the product of the tile of Gaussian weights with the matching block of input weights into a scratch
  accumulator reset at the first input tile, and writes the accumulator out after the fourth. The reference forms the
  whole `4096 × 4096` weight matrix of each batch pair and contracts it with the weights in one batched product.

  Over the extended reals the two agree index by index, for ALL inputs (the precondition is not used):
    * changes of float format are the identity, lane sums and matrix products are plain finite sums, and a sum started
      from the literal zero is the sum;
    * the kernel scales the squared distance by the literal `-0.5` where the reference negates it and divides by the
      literal `2`: the same extended real for every argument, infinite ones included (Scalars.lean);
    * a sum over `4096` input points is the sum of its four runs of `1024`, from zero, in order (Scalars.lean, Spec.lean):
      only commutativity and associativity of addition, which hold on the extended reals.
  Spec.lean states the common function `G`; RefValue.lean reads the reference's operations at an index and finds `G`;
  Pieces.lean, Payload.lean, Accum.lean, Blocks.lean and Result.lean read the kernel's run: what one run of the body
  leaves, the accumulator update at an index, the accumulator across the grid as a fold, the blocks as entries of the
  argument arrays and the written-back blocks as blocks of `G`, and the final reshape.

  The three frames: the two kernels' are their runs with the results dropped; the reference's is its run likewise. The
  idealization rewrote nothing, so `preserves` is trivial.
-/
import proofs.«138235_j72971494359165_1_alg».proof.Defs
import proofs.«138235_j72971494359165_1_alg».proof.Proof.Gen.Kernel
import proofs.«138235_j72971494359165_1_alg».proof.Proof.Gen.Kernel.Frame
import proofs.«138235_j72971494359165_1_alg».proof.Proof.Gen.KernelIdeal
import proofs.«138235_j72971494359165_1_alg».proof.Proof.Gen.KernelIdeal.Frame
import proofs.«138235_j72971494359165_1_alg».proof.Proof.Gen.ReferenceIdeal
import proofs.«138235_j72971494359165_1_alg».proof.Proof.Gen.ReferenceIdeal.Run
import proofs.«138235_j72971494359165_1_alg».proof.Proof.Gen.ReferenceIdeal.Read
import proofs.«138235_j72971494359165_1_alg».proof.Proof.Gen.Pre_finite_inputs
import proofs.«138235_j72971494359165_1_alg».proof.Proof.RefValue
import proofs.«138235_j72971494359165_1_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at `G` of the argument arrays, which agree. -/
theorem algebraic : Cert.algebraic_KernelIdeal_ReferenceIdeal := by
  intro m ρ m' ρ' _ hagree
  refine ⟨fun c => Cert.Gauss.G (Cert.KernelIdeal.Tile.argX m c) (Cert.KernelIdeal.Tile.argW m c) (Cert.KernelIdeal.Tile.argY m c),
    Cert.KernelIdeal.Tile.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
